-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S768x256 : Shape := ⟨2, ![768, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn_part1 {F : FTy → Type} [FloatOps F] (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  main_v18

def fn {F : FTy → Type} [FloatOps F] (main_arg0 : FVec F S131072x256 .f32) (main_arg1 : FVec F S131072x256 .f32) (main_arg2 : FVec F S768x256 .f32) (main_arg3 : FVec F S768x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_v13 main_v16
-- ==== Kernel.lean ====
abbrev S131072x256 : Shape := ⟨2, ![131072, 256]⟩
abbrev S768x256 : Shape := ⟨2, ![768, 256]⟩
abbrev S256x768 : Shape := ⟨2, ![256, 768]⟩
abbrev S256x512 : Shape := ⟨2, ![256, 512]⟩
abbrev S512x512 : Shape := ⟨2, ![512, 512]⟩
abbrev S256x256 : Shape := ⟨2, ![256, 256]⟩
abbrev S2048x256 : Shape := ⟨2, ![2048, 256]⟩
abbrev S2048x512 : Shape := ⟨2, ![2048, 512]⟩

abbrev nBuf : Space → Nat
  | .hbm => 15
  | .vmem => 9
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S256x768, .f32⟩
  | .hbm, ⟨6, _⟩ => ⟨S256x512, .f32⟩
  | .hbm, ⟨7, _⟩ => ⟨S256x512, .f32⟩
  | .hbm, ⟨8, _⟩ => ⟨S512x512, .f32⟩
  | .hbm, ⟨9, _⟩ => ⟨S512x512, .bf16⟩
  | .hbm, ⟨10, _⟩ => ⟨S256x256, .f32⟩
  | .hbm, ⟨11, _⟩ => ⟨S256x256, .bf16⟩
  | .hbm, ⟨12, _⟩ => ⟨S256x256, .f32⟩
  | .hbm, ⟨13, _⟩ => ⟨S256x256, .bf16⟩
  | .hbm, ⟨14, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S512x512, .bf16⟩
  | .local _ .vmem, ⟨5, _⟩ => ⟨S256x256, .bf16⟩
  | .local _ .vmem, ⟨6, _⟩ => ⟨S256x256, .bf16⟩
  | .local _ .vmem, ⟨7, _⟩ => ⟨S2048x256, .f32⟩
  | .local _ .vmem, ⟨8, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S768x256_S256x768_1_0 : S768x256.Transposes [1, 0] S256x768
  slices_S256x768_S256x512_0_0 : S256x768.Slices ![0, 0] S256x512
  concatenates_S256x512_S256x512_S512x512_d0 : Shape.Concatenates [S256x512, S256x512] S512x512 0
  bitsLt_bf16_f32 : FTy.bits .bf16 < FTy.bits .f32
  slices_S256x768_S256x256_0_512 : S256x768.Slices ![0, 512] S256x256
  inb_S2048x256_S2048x256_0_0 : ∀ a, (![0, 0] : Fin 2 → Nat) a + S2048x256.size a ≤ S2048x256.size a
  h_S2048x256 : 0 < S2048x256.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  concatenates_S2048x256_S2048x256_S2048x512_d1 : Shape.Concatenates [S2048x256, S2048x256] S2048x512 1
  slices_S2048x512_o0_0_S2048x256 : S2048x512.Slices ![0, 0] S2048x256
  slices_S2048x512_o0_256_S2048x256 : S2048x512.Slices ![0, 256] S2048x256
  dot_S2048x512_S512x512_S2048x512_1_0_0_1_n_n_wf : DotDims.WF S2048x512 S512x512 S2048x512 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S131072x256.size a
  hwx0_5 : ∀ i : grid0.Coords, EltTy.bits .f32 = 32 ∨ (Rect.block (s := S131072x256) S2048x256.size (cc0_transform_5 i) (hinb0_5 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x256 : Shape := ⟨2, ![131072, 256]⟩
abbrev S768x256 : Shape := ⟨2, ![768, 256]⟩
abbrev S256x768 : Shape := ⟨2, ![256, 768]⟩
abbrev S131072x768 : Shape := ⟨2, ![131072, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S131072x768, .f32⟩
  | .hbm, ⟨6, _⟩ => ⟨S256x768, .f32⟩
  | .hbm, ⟨7, _⟩ => ⟨S131072x768, .f32⟩
  | .hbm, ⟨8, _⟩ => ⟨S131072x256, .f32⟩
  | .hbm, ⟨9, _⟩ => ⟨S131072x256, .f32⟩
  | .hbm, ⟨10, _⟩ => ⟨S131072x256, .f32⟩
  | .hbm, ⟨11, _⟩ => ⟨S131072x256, .f32⟩
  | .hbm, ⟨12, _⟩ => ⟨S131072x256, .f32⟩
  | .hbm, ⟨13, _⟩ => ⟨S131072x256, .f32⟩
  | .hbm, ⟨14, _⟩ => ⟨S131072x256, .f32⟩
  | .hbm, ⟨15, _⟩ => ⟨S131072x256, .f32⟩
  | .hbm, ⟨16, _⟩ => ⟨S131072x256, .f32⟩
  | .hbm, ⟨17, _⟩ => ⟨S_, .f32⟩
  | .hbm, ⟨18, _⟩ => ⟨S131072x256, .f32⟩
  | .hbm, ⟨19, _⟩ => ⟨S131072x256, .f32⟩
  | .hbm, ⟨20, _⟩ => ⟨S_, .f32⟩
  | .hbm, ⟨21, _⟩ => ⟨S131072x256, .f32⟩
  | .hbm, ⟨22, _⟩ => ⟨S131072x256, .f32⟩
  | .hbm, ⟨23, _⟩ => ⟨S131072x256, .f32⟩
  | .hbm, ⟨24, _⟩ => ⟨S131072x256, .f32⟩
  | .hbm, ⟨25, _⟩ => ⟨S131072x256, .f32⟩
  | .hbm, ⟨26, _⟩ => ⟨S_, .f32⟩
  | .hbm, ⟨27, _⟩ => ⟨S131072x256, .f32⟩
  | .hbm, ⟨28, _⟩ => ⟨S131072x256, .f32⟩
  | .hbm, ⟨29, _⟩ => ⟨S_, .f32⟩
  | .hbm, ⟨30, _⟩ => ⟨S131072x256, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S131072x256, .f32⟩
  | .hbm, ⟨36, _⟩ => ⟨S131072x256, .f32⟩
  | .hbm, ⟨37, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  transposes_S768x256_S256x768_1_0 : S768x256.Transposes [1, 0] S256x768
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  bcast_S_S131072x256 : S_.BroadcastsInDim S131072x256 (![] : Fin 0 → Fin S131072x256.rank)
  dot_S131072x256_S256x768_S131072x768_1_0_0_1_n_n_wf : DotDims.WF S131072x256 S256x768 S131072x768 [1] [0] [0] [1] [] []

variable [Facts₀]

def dot_S131072x256_S256x768_S131072x768_1_0_0_1_n_n : DotDims S131072x256 S256x768 S131072x768 where
  lhsContracting := [1]
  rhsContracting := [0]
  lhsNonContracting := [0]
  rhsNonContracting := [1]
  lhsBatch := []
  rhsBatch := []
  wf := dot_S131072x256_S256x768_S131072x768_1_0_0_1_n_n_wf

class Facts : Prop extends Facts₀ where

variable [Facts]
-- ==== Proof.GruMath.lean ====
import Idealize.ShloMosaic.PureOps.Ideal
import Idealize.ShloMosaic.Lib.IdealHost
import Idealize.ShloMosaic.Lib.ValueIdx
import Mathlib.Analysis.SpecialFunctions.Trigonometric.Deriv

/-!
The mathematics of one GRU step over the extended reals, with no program in sight.

For a batch row `i` and a hidden unit `j`, with `x`, `h` of shape [131072, 256] and the two weight matrices of shape
[768, 256] (rows `j`, `256 + j`, `512 + j` are the reset, update and candidate rows of unit `j`):

  r = Σₖ x[i,k]·Wih[j,k] + Σₖ h[i,k]·Whh[j,k]          z = the same with row 256 + j
  n = Σₖ x[i,k]·Wih[512+j,k]                            m = Σₖ h[i,k]·Whh[512+j,k]
  out[i,j] = c + σ(z)·(h[i,j] − c),   c = tanh(n + σ(r)·m)

The logistic function σ is spelled two ways: `1 / (1 + e^{-t})`, and `½·(tanh(½·t) + 1)` (the constants one and one half kept
as their f32 patterns `0x3F800000`, `0x3F000000`). They agree at every REAL `t`,
and `r`, `z` are real as soon as every entry of the four arrays is.
-/

noncomputable section

namespace Cert.GruMath

open Idealize.ShloMosaic Idealize.ShloMosaic.ValueIdx

/-! ## The two spellings of the logistic function -/

/-- The f32 pattern `0x3F000000` is one half. -/
theorem ofBits_half : Ideal.ofBits .f32 0x3F000000#32 = ((1 / 2 : ℝ) : EReal) := by
  simp [Ideal.ofBits, Ideal.ieee, -EReal.coe_mul]; norm_num

/-- On the reals: `1 / (1 + e^{-t}) = ½ (tanh (t/2) + 1)` (multiply numerator and denominator by `e^{t/2}`). -/
theorem real_logistic (t : ℝ) : 1 / (1 + Real.exp (-t)) = (1 / 2) * (Real.tanh ((1 / 2) * t) + 1) := by
  have h2 : Real.exp (-t) = Real.exp (-((1 / 2) * t)) * Real.exp (-((1 / 2) * t)) := by
    rw [← Real.exp_add]; congr 1; ring
  rw [Real.tanh_eq_sinh_div_cosh, Real.sinh_eq, Real.cosh_eq, h2, Real.exp_neg]
  have hp : 0 < Real.exp ((1 / 2) * t) := Real.exp_pos _
  field_simp
  ring

/-- The logistic function by the exponential, on the extended reals. -/
def sigExp (t : EReal) : EReal :=
  Ideal.div (Ideal.ofBits .f32 0x3F800000#32) (Ideal.ofBits .f32 0x3F800000#32 + Ideal.exp (-t))

/-- The logistic function by the hyperbolic tangent, on the extended reals. -/
def sigTanh (t : EReal) : EReal :=
  Ideal.ofBits .f32 0x3F000000#32 * (Ideal.tanh (Ideal.ofBits .f32 0x3F000000#32 * t) + Ideal.ofBits .f32 0x3F800000#32)

/-- At a real argument the two agree: both are the real number `1 / (1 + e^{-t})`. -/
theorem sigTanh_coe (t : ℝ) : sigTanh (t : EReal) = sigExp (t : EReal) := by
  have hpos : (1 + Real.exp (-t)) ≠ 0 := (add_pos one_pos (Real.exp_pos _)).ne'
  unfold sigTanh sigExp
  rw [ofBits_half, Ideal.ofBits_one_f32, ← EReal.coe_neg, Ideal.exp_coe, ← EReal.coe_one, ← EReal.coe_add, Ideal.div_coe hpos, ← EReal.coe_mul,
    ← EReal.coe_mul, Ideal.tanh_coe, ← EReal.coe_add, ← EReal.coe_mul, one_mul, real_logistic]

/-! ## One cell -/

/-- One output entry from the four pre-activations and the old state, the gates by `σ`. -/
def cell (σ : EReal → EReal) (r z n m hprev : EReal) : EReal :=
  Ideal.tanh (n + σ r * m) + σ z * (hprev - Ideal.tanh (n + σ r * m))

/-- An extended real that is a real number. -/
def IsReal (a : EReal) : Prop := ∃ t : ℝ, a = (t : EReal)

theorem IsReal.add {a b : EReal} (ha : IsReal a) (hb : IsReal b) : IsReal (a + b) := by
  obtain ⟨s, rfl⟩ := ha; obtain ⟨t, rfl⟩ := hb; exact ⟨s + t, (EReal.coe_add s t).symm⟩

theorem IsReal.mul {a b : EReal} (ha : IsReal a) (hb : IsReal b) : IsReal (a * b) := by
  obtain ⟨s, rfl⟩ := ha; obtain ⟨t, rfl⟩ := hb; exact ⟨s * t, (EReal.coe_mul s t).symm⟩

theorem IsReal.sum {ι : Type*} (s : Finset ι) (f : ι → EReal) (hf : ∀ k, IsReal (f k)) : IsReal (∑ k ∈ s, f k) := by
  classical
  induction s using Finset.induction_on with
  | empty => exact ⟨0, by simp⟩
  | insert a s ha ih => rw [Finset.sum_insert ha]; exact (hf a).add ih

/-- With real gate pre-activations the two spellings of the gates give the same cell. -/
theorem cell_sig {r z : EReal} (hr : IsReal r) (hz : IsReal z) (n m hprev : EReal) :
    cell sigTanh r z n m hprev = cell sigExp r z n m hprev := by
  obtain ⟨s, rfl⟩ := hr; obtain ⟨t, rfl⟩ := hz
  unfold cell
  rw [sigTanh_coe, sigTanh_coe]

/-! ## The pre-activations -/

abbrev SX : Shape := ⟨2, ![131072, 256]⟩
abbrev SW : Shape := ⟨2, ![768, 256]⟩

/-- Row `i` of `x` against row `j` of `w`. -/
def dotRow (x : SX.Idx → EReal) (w : SW.Idx → EReal) (i : Fin 131072) (j : Fin 768) : EReal :=
  ∑ k : Fin 256, x (ix2 i k) * w (ix2 j k)

theorem dotRow_isReal {x : SX.Idx → EReal} {w : SW.Idx → EReal} (hx : ∀ a, IsReal (x a)) (hw : ∀ a, IsReal (w a))
    (i : Fin 131072) (j : Fin 768) : IsReal (dotRow x w i j) :=
  IsReal.sum _ _ fun k => (hx _).mul (hw _)

/-- The reset, update and candidate rows of hidden unit `j` in a [768, 256] weight matrix. -/
abbrev rowR (j : Fin 256) : Fin 768 := ⟨j.val, by omega⟩
abbrev rowZ (j : Fin 256) : Fin 768 := ⟨256 + j.val, by omega⟩
abbrev rowN (j : Fin 256) : Fin 768 := ⟨512 + j.val, by omega⟩

/-- The step's output at batch row `i`, hidden unit `j`, the gates by `σ`. -/
def gruAt (σ : EReal → EReal) (x h : SX.Idx → EReal) (wih whh : SW.Idx → EReal) (i : Fin 131072) (j : Fin 256) : EReal :=
  cell σ (dotRow x wih i (rowR j) + dotRow h whh i (rowR j)) (dotRow x wih i (rowZ j) + dotRow h whh i (rowZ j))
    (dotRow x wih i (rowN j)) (dotRow h whh i (rowN j)) (h (ix2 i j))

/-- The whole output array. -/
def gru (σ : EReal → EReal) (x h : SX.Idx → EReal) (wih whh : SW.Idx → EReal) : SX.Idx → EReal :=
  fun a => gruAt σ x h wih whh ⟨(a 0).val, (a 0).isLt⟩ ⟨(a 1).val, (a 1).isLt⟩

theorem gru_ix2 (σ : EReal → EReal) (x h : SX.Idx → EReal) (wih whh : SW.Idx → EReal) (i : Fin 131072) (j : Fin 256) :
    gru σ x h wih whh (ix2 i j) = gruAt σ x h wih whh i j := rfl

/-- On arrays of real numbers the two spellings of the gates give one output array. -/
theorem gru_sig {x h : SX.Idx → EReal} {wih whh : SW.Idx → EReal} (hx : ∀ a, IsReal (x a)) (hh : ∀ a, IsReal (h a))
    (hwi : ∀ a, IsReal (wih a)) (hwh : ∀ a, IsReal (whh a)) : gru sigTanh x h wih whh = gru sigExp x h wih whh := by
  funext a
  unfold gru gruAt
  exact cell_sig ((dotRow_isReal hx hwi _ _).add (dotRow_isReal hh hwh _ _))
    ((dotRow_isReal hx hwi _ _).add (dotRow_isReal hh hwh _ _)) _ _ _

/-! ## A sum over 512 terms as two sums over 256 -/

theorem sum_512 {M : Type*} [AddCommMonoid M] (f : Fin 512 → M) :
    ∑ k : Fin 512, f k = ∑ k : Fin 256, f ⟨k.val, by omega⟩ + ∑ k : Fin 256, f ⟨256 + k.val, by omega⟩ :=
  Fin.sum_univ_add (a := 256) (b := 256) (fun k : Fin (256 + 256) => f k)

end Cert.GruMath
end
-- ==== Proof.GruPayload.lean ====
import proofs.«427330_j36043365548431_3_alg».proof.Proof.Gen.KernelIdeal.Skeleton
import proofs.«427330_j36043365548431_3_alg».proof.Proof.GruMath
import Idealize.ShloMosaic.Lib.Pipeline.Value
import Idealize.ShloMosaic.Lib.ValueIdx
import Idealize.ShloMosaic.PureOps.Ideal.Laws

/-!
What the kernel body computes from its five loaded blocks, read at one entry (p, q) of the [2048, 256] output block.

The body concatenates the x block and the h block along the lanes into a [2048, 512] operand and multiplies it by the
stacked [512, 512] weight block, so entry (p, c) of that product is a sum over 512 terms, the first 256 of them over the x
row and the last 256 over the h row. Lanes `q` and `256 + q` of the product are the reset and update pre-activations;
the two [2048, 256] × [256, 256] products are the candidate's input and hidden parts. The gates are `½·(tanh(½·t) + 1)`.
-/

noncomputable section

namespace Cert.KernelIdeal.GruPayload

open Cert.KernelIdeal Cert.KernelIdeal.Gen Idealize.ShloMosaic Idealize.ShloMosaic.ValueIdx Cert.GruMath

/-- Lane `k` of the x half, and lane `256 + k` of the h half, of a 512-lane axis. -/
abbrev lo (k : Fin 256) : Fin 512 := ⟨k.val, by omega⟩
abbrev hi (k : Fin 256) : Fin 512 := ⟨256 + k.val, by omega⟩

/-! ## The [2048, 256] × [256, 256] products at an entry -/

theorem lhsN_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhsN_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhsN_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhsN_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry (p, q) of a [2048, 256] × [256, 256] product into a zero accumulator: row `p` against column `q`. -/
theorem mmN_apply (a : FVec Ideal S2048x256 .bf16) (b : FVec Ideal S256x256 .bf16) (p : Fin 2048) (q : Fin 256) :
    matmul dot_S2048x256_S256x256_S2048x256_1_0_0_1_n_n none a b (constant (F := Ideal) S2048x256 .f32 0x00000000#32) (ix2 p q)
      = ∑ k : Fin 256, a (ix2 p k) * b (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhsN_0 _ _
    | ⟨1, _⟩ => exact (lhsN_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhsN_0 _ _).trans hk
    | ⟨1, _⟩ => exact rhsN_1 _ _)
  rw [el, er]

/-! ## The [2048, 512] × [512, 512] product at an entry -/

theorem lhsG_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhsG_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhsG_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhsG_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Entry (p, c) of the [2048, 512] × [512, 512] product into a zero accumulator: row `p` against column `c`. -/
theorem mmG_apply (a : FVec Ideal S2048x512 .bf16) (b : FVec Ideal S512x512 .bf16) (p : Fin 2048) (c : Fin 512) :
    matmul dot_S2048x512_S512x512_S2048x512_1_0_0_1_n_n none a b (constant (F := Ideal) S2048x512 .f32 0x00000000#32) (ix2 p c)
      = ∑ k : Fin 512, a (ix2 p k) * b (ix2 k c) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p c) ((contrEquiv1 dot_S2048x512_S512x512_S2048x512_1_0_0_1_n_n 512 rfl rfl).symm k) = ix2 p k := funext fun a => Fin.ext (by
    match a with
    | ⟨0, _⟩ => exact lhsG_0 _ _
    | ⟨1, _⟩ => exact (lhsG_1 _ _).trans hk)
  have er : dot_S2048x512_S512x512_S2048x512_1_0_0_1_n_n.rhsIdx (ix2 p c) ((contrEquiv1 dot_S2048x512_S512x512_S2048x512_1_0_0_1_n_n 512 rfl rfl).symm k) = ix2 k c := funext fun a => Fin.ext (by
    match a with
    | ⟨0, _⟩ => exact (rhsG_0 _ _).trans hk
    | ⟨1, _⟩ => exact rhsG_1 _ _)
  rw [el, er]

/-! ## The lane concatenation at an entry -/

/-- A lane of the x half of the concatenated operand is the x block's. -/
theorem cat_lo (u v : FVec Ideal S2048x256 .bf16) (p : Fin 2048) (k : Fin 256) :
    concatenate S2048x512 1 [⟨S2048x256, u⟩, ⟨S2048x256, v⟩] concatenates_S2048x256_S2048x256_S2048x512_d1 (ix2 p (lo k)) = u (ix2 p k) :=
  concatenate_pair_apply_left 1 u v concatenates_S2048x256_S2048x256_S2048x512_d1 (ix2 p (lo k)) rfl (ix2 p k)
    (fun b => match b with | ⟨0, _⟩ => rfl | ⟨1, _⟩ => rfl)

/-- A lane of the h half of the concatenated operand is the h block's, 256 lanes back. -/
theorem cat_hi (u v : FVec Ideal S2048x256 .bf16) (p : Fin 2048) (k : Fin 256) :
    concatenate S2048x512 1 [⟨S2048x256, u⟩, ⟨S2048x256, v⟩] concatenates_S2048x256_S2048x256_S2048x512_d1 (ix2 p (hi k)) = v (ix2 p k) :=
  concatenate_pair_apply_right 1 u v concatenates_S2048x256_S2048x256_S2048x512_d1 (ix2 p (hi k)) rfl rfl (ix2 p k)
    (fun b hb => match b, hb with | ⟨0, _⟩, _ => rfl | ⟨1, _⟩, hb => absurd rfl hb)
    (by show k.val + 256 = 256 + k.val; omega)

/-- The product of the concatenated operand with the stacked weights at (p, c): the x row against the first 256 rows of
    column `c`, plus the h row against the last 256. -/
theorem gates_apply (u v : FVec Ideal S2048x256 .bf16) (w : FVec Ideal S512x512 .bf16) (p : Fin 2048) (c : Fin 512) :
    matmul dot_S2048x512_S512x512_S2048x512_1_0_0_1_n_n none
        (concatenate S2048x512 1 [⟨S2048x256, u⟩, ⟨S2048x256, v⟩] concatenates_S2048x256_S2048x256_S2048x512_d1) w
        (constant (F := Ideal) S2048x512 .f32 0x00000000#32) (ix2 p c)
      = ∑ k : Fin 256, u (ix2 p k) * w (ix2 (lo k) c) + ∑ k : Fin 256, v (ix2 p k) * w (ix2 (hi k) c) := by
  rw [mmG_apply, sum_512]
  refine congrArg₂ (· + ·) (Finset.sum_congr rfl fun k _ => ?_) (Finset.sum_congr rfl fun k _ => ?_)
  · exact congrArg (· * _) (cat_lo u v p k)
  · exact congrArg (· * _) (cat_hi u v p k)

/-! ## The two lane slices of the product -/

/-- Lane `q` of the first 256 lanes of the [2048, 512] product. -/
theorem slice_lo (g : FVec Ideal S2048x512 .f32) (p : Fin 2048) (q : Fin 256) :
    extractStridedSlice S2048x256 ![0, 0] g slices_S2048x512_o0_0_S2048x256 (ix2 p q) = g (ix2 p (lo q)) :=
  extractStridedSlice_apply ![0, 0] g slices_S2048x512_o0_0_S2048x256 (ix2 p q) (ix2 p (lo q))
    (fun a => match a with
      | ⟨0, _⟩ => by show p.val = 0 + p.val; omega
      | ⟨1, _⟩ => by show q.val = 0 + q.val; omega)

/-- Lane `q` of the last 256 lanes of the [2048, 512] product. -/
theorem slice_hi (g : FVec Ideal S2048x512 .f32) (p : Fin 2048) (q : Fin 256) :
    extractStridedSlice S2048x256 ![0, 256] g slices_S2048x512_o0_256_S2048x256 (ix2 p q) = g (ix2 p (hi q)) :=
  extractStridedSlice_apply ![0, 256] g slices_S2048x512_o0_256_S2048x256 (ix2 p q) (ix2 p (hi q))
    (fun a => match a with
      | ⟨0, _⟩ => by show p.val = 0 + p.val; omega
      | ⟨1, _⟩ => rfl)

/-! ## The stored value at an entry -/

/-- Entry (p, q) of what the body stores: one GRU cell, its gates by the hyperbolic tangent, whose reset and update
    pre-activations are lanes `q` and `256 + q` of the stacked product and whose candidate parts are the two small products. -/
theorem pay_apply (x0 x1 : Vec Ideal S2048x256 .f32) (w5 : Vec Ideal S512x512 .bf16) (w7 w9 : Vec Ideal S256x256 .bf16)
    (p : Fin 2048) (q : Fin 256) :
    k0_pay1 x0 x1 w5 w7 w9 (ix2 p q)
      = cell sigTanh
          (∑ k : Fin 256, x0 (ix2 p k) * w5 (ix2 (lo k) (lo q)) + ∑ k : Fin 256, x1 (ix2 p k) * w5 (ix2 (hi k) (lo q)))
          (∑ k : Fin 256, x0 (ix2 p k) * w5 (ix2 (lo k) (hi q)) + ∑ k : Fin 256, x1 (ix2 p k) * w5 (ix2 (hi k) (hi q)))
          (∑ k : Fin 256, x0 (ix2 p k) * w7 (ix2 k q)) (∑ k : Fin 256, x1 (ix2 p k) * w9 (ix2 k q)) (x1 (ix2 p q)) := by
  have eR := gates_apply (truncf .bf16 x0 bitsLt_bf16_f32) (truncf .bf16 x1 bitsLt_bf16_f32) w5 p (lo q)
  have eZ := gates_apply (truncf .bf16 x0 bitsLt_bf16_f32) (truncf .bf16 x1 bitsLt_bf16_f32) w5 p (hi q)
  have eN := mmN_apply (truncf .bf16 x0 bitsLt_bf16_f32) w7 p q
  have eM := mmN_apply (truncf .bf16 x1 bitsLt_bf16_f32) w9 p q
  simp only [k0_pay1, addf, mulf, subf, tanh, broadcast, shapeCast_self, slice_lo, slice_hi, eR, eZ, eN, eM]
  rfl

end Cert.KernelIdeal.GruPayload
end
-- ==== Proof.GruBlocks.lean ====
import proofs.«427330_j36043365548431_3_alg».proof.Proof.Gen.KernelIdeal.Value
import proofs.«427330_j36043365548431_3_alg».proof.Proof.GruPayload
import Idealize.ShloMosaic.Lib.StableHlo.Run

/-!
From the stored block to the whole output array.

Grid point `t` of 64 works on batch rows `2048·t … 2048·t + 2047`: its x and h blocks are those rows of the two
[131072, 256] arguments, its three weight blocks are the whole arrays the host operations before the call prepared, and
it writes those rows of the output. The host prepares: the stacked [512, 512] array whose row `k` (`256 + k`) holds, at
column `c`, entry (c, k) of the input (hidden) weight matrix; and the two [256, 256] arrays holding at (k, q) entry
(512 + q, k) of the input and of the hidden weight matrix. So entry (p, q) of the block point `t` stores is the GRU cell of
batch row `2048·t + p` and hidden unit `q`, and the 64 blocks tile the output.
-/

noncomputable section

namespace Cert.KernelIdeal.GruBlocks

open Cert.KernelIdeal Cert.KernelIdeal.Gen Idealize.ShloMosaic Idealize.ShloMosaic.TcCoe Idealize.SL.Sem
open Idealize.ShloMosaic.ValueIdx Cert.GruMath Cert.KernelIdeal.GruPayload Idealize.ShloMosaic.StableHlo
open Idealize.ShloMosaic.Pipeline (Dat)

variable (m : (ℓ : Loc nD τ sig) → Buf (Elt Ideal) ℓ) (ρ : Dev nD → PrngReg)

/-! ## The weight arrays the region finds -/

/-- The four argument arrays, and the three prepared weight arrays, as the region finds them, at their literal types. -/
abbrev xArr (c : Dev nD) : S131072x256.Idx → EReal := V m c main_arg0
abbrev hArr (c : Dev nD) : S131072x256.Idx → EReal := V m c main_arg1
abbrev wihArr (c : Dev nD) : S768x256.Idx → EReal := V m c main_arg2
abbrev whhArr (c : Dev nD) : S768x256.Idx → EReal := V m c main_arg3
abbrev stackedArr (c : Dev nD) : S512x512.Idx → EReal := V m c main_v5
abbrev candXArr (c : Dev nD) : S256x256.Idx → EReal := V m c main_v7
abbrev candHArr (c : Dev nD) : S256x256.Idx → EReal := V m c main_v9

theorem stacked_eq (c : Dev nD) :
    stackedArr m c
      = truncf (F := Ideal) .bf16 (concatenate S512x512 0
          [⟨S256x512, extractStridedSlice S256x512 ![0, 0] (transpose S256x768 [1, 0] (wihArr m c) transposes_S768x256_S256x768_1_0) slices_S256x768_S256x512_0_0⟩,
           ⟨S256x512, extractStridedSlice S256x512 ![0, 0] (transpose S256x768 [1, 0] (whhArr m c) transposes_S768x256_S256x768_1_0) slices_S256x768_S256x512_0_0⟩]
          concatenates_S256x512_S256x512_S512x512_d0) bitsLt_bf16_f32 := by
  dsimp only [stackedArr, wihArr, whhArr, Gen.V, Gen.hostOps0]
  after_results

theorem candX_eq (c : Dev nD) :
    candXArr m c
      = truncf (F := Ideal) .bf16 (extractStridedSlice S256x256 ![0, 512] (transpose S256x768 [1, 0] (wihArr m c) transposes_S768x256_S256x768_1_0) slices_S256x768_S256x256_0_512) bitsLt_bf16_f32 := by
  dsimp only [candXArr, wihArr, Gen.V, Gen.hostOps0]
  after_results

theorem candH_eq (c : Dev nD) :
    candHArr m c
      = truncf (F := Ideal) .bf16 (extractStridedSlice S256x256 ![0, 512] (transpose S256x768 [1, 0] (whhArr m c) transposes_S768x256_S256x768_1_0) slices_S256x768_S256x256_0_512) bitsLt_bf16_f32 := by
  dsimp only [candHArr, whhArr, Gen.V, Gen.hostOps0]
  after_results

/-! ## The prepared weight arrays at an entry -/

/-- A column of the 512-lane gate axis as a row of a [768, 256] weight matrix. -/
abbrev wide (c : Fin 512) : Fin 768 := ⟨c.val, by omega⟩

/-- Entry (k, c) of the first 256 rows of the stacked array is entry (c, k) of the first matrix. -/
theorem stack_lo (a2 a3 : FVec Ideal S768x256 .f32) (k : Fin 256) (c : Fin 512) :
    truncf (F := Ideal) .bf16 (concatenate S512x512 0
        [⟨S256x512, extractStridedSlice S256x512 ![0, 0] (transpose S256x768 [1, 0] a2 transposes_S768x256_S256x768_1_0) slices_S256x768_S256x512_0_0⟩,
         ⟨S256x512, extractStridedSlice S256x512 ![0, 0] (transpose S256x768 [1, 0] a3 transposes_S768x256_S256x768_1_0) slices_S256x768_S256x512_0_0⟩]
        concatenates_S256x512_S256x512_S512x512_d0) bitsLt_bf16_f32 (ix2 (lo k) c) = a2 (ix2 (wide c) k) := by
  refine (truncf_apply (φ := .f32) (ψ := .bf16) _ bitsLt_bf16_f32 _).trans ?_
  refine (concatenate_pair_apply_left 0 _ _ concatenates_S256x512_S256x512_S512x512_d0 (ix2 (lo k) c) rfl (ix2 k c)
    (fun b => match b with | ⟨0, _⟩ => rfl | ⟨1, _⟩ => rfl)).trans ?_
  refine (extractStridedSlice_apply ![0, 0] _ slices_S256x768_S256x512_0_0 (ix2 k c) (ix2 k (wide c))
    (fun a => match a with
      | ⟨0, _⟩ => by show k.val = 0 + k.val; omega
      | ⟨1, _⟩ => by show c.val = 0 + c.val; omega)).trans ?_
  exact transpose_apply [1, 0] a2 transposes_S768x256_S256x768_1_0 (ix2 k (wide c)) (ix2 (wide c) k)
    (fun b => match b with | ⟨0, _⟩ => rfl | ⟨1, _⟩ => rfl)

/-- Entry (256 + k, c) of the stacked array is entry (c, k) of the second matrix. -/
theorem stack_hi (a2 a3 : FVec Ideal S768x256 .f32) (k : Fin 256) (c : Fin 512) :
    truncf (F := Ideal) .bf16 (concatenate S512x512 0
        [⟨S256x512, extractStridedSlice S256x512 ![0, 0] (transpose S256x768 [1, 0] a2 transposes_S768x256_S256x768_1_0) slices_S256x768_S256x512_0_0⟩,
         ⟨S256x512, extractStridedSlice S256x512 ![0, 0] (transpose S256x768 [1, 0] a3 transposes_S768x256_S256x768_1_0) slices_S256x768_S256x512_0_0⟩]
        concatenates_S256x512_S256x512_S512x512_d0) bitsLt_bf16_f32 (ix2 (hi k) c) = a3 (ix2 (wide c) k) := by
  refine (truncf_apply (φ := .f32) (ψ := .bf16) _ bitsLt_bf16_f32 _).trans ?_
  refine (concatenate_pair_apply_right 0 _ _ concatenates_S256x512_S256x512_S512x512_d0 (ix2 (hi k) c) rfl rfl (ix2 k c)
    (fun b hb => match b, hb with | ⟨0, _⟩, hb => absurd rfl hb | ⟨1, _⟩, _ => rfl)
    (by show k.val + 256 = 256 + k.val; omega)).trans ?_
  refine (extractStridedSlice_apply ![0, 0] _ slices_S256x768_S256x512_0_0 (ix2 k c) (ix2 k (wide c))
    (fun a => match a with
      | ⟨0, _⟩ => by show k.val = 0 + k.val; omega
      | ⟨1, _⟩ => by show c.val = 0 + c.val; omega)).trans ?_
  exact transpose_apply [1, 0] a3 transposes_S768x256_S256x768_1_0 (ix2 k (wide c)) (ix2 (wide c) k)
    (fun b => match b with | ⟨0, _⟩ => rfl | ⟨1, _⟩ => rfl)

/-- Entry (k, q) of a candidate array is entry (512 + q, k) of its weight matrix. -/
theorem cand_apply (a : FVec Ideal S768x256 .f32) (k q : Fin 256) :
    truncf (F := Ideal) .bf16 (extractStridedSlice S256x256 ![0, 512] (transpose S256x768 [1, 0] a transposes_S768x256_S256x768_1_0) slices_S256x768_S256x256_0_512) bitsLt_bf16_f32 (ix2 k q)
      = a (ix2 (rowN q) k) := by
  refine (truncf_apply (φ := .f32) (ψ := .bf16) _ bitsLt_bf16_f32 _).trans ?_
  refine (extractStridedSlice_apply ![0, 512] _ slices_S256x768_S256x256_0_512 (ix2 k q) (ix2 k (rowN q))
    (fun a => match a with
      | ⟨0, _⟩ => by show k.val = 0 + k.val; omega
      | ⟨1, _⟩ => rfl)).trans ?_
  exact transpose_apply [1, 0] a transposes_S768x256_S256x768_1_0 (ix2 k (rowN q)) (ix2 (rowN q) k)
    (fun b => match b with | ⟨0, _⟩ => rfl | ⟨1, _⟩ => rfl)

/-! ## The blocks of a grid point -/

theorem hz : (![0, 0] : Fin 2 → Nat) = fun _ => 0 := funext fun a => by fin_cases a <;> rfl

/-- The printed index maps, decided over the 64 points: the x, h and output windows are at block row `t`, the three
    weight windows always at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 64 := lt_of_lt_of_eq t.isLt N_0

/-- Batch row `2048·t + p`: row `p` of point `t`'s block. -/
abbrev rowOf (t : Fin cfg0.N) (p : Fin 2048) : Fin 131072 := ⟨t.val * 2048 + p.val, by have := point_lt t; omega⟩

/-- Point `t`'s five input blocks, at their literal types. -/
abbrev xBlk (c : Dev nD) (t : Fin cfg0.N) : S2048x256.Idx → EReal := iblk m c 0 t
abbrev hBlk (c : Dev nD) (t : Fin cfg0.N) : S2048x256.Idx → EReal := iblk m c 1 t
abbrev stackBlk (c : Dev nD) (t : Fin cfg0.N) : S512x512.Idx → EReal := iblk m c 2 t
abbrev candXBlk (c : Dev nD) (t : Fin cfg0.N) : S256x256.Idx → EReal := iblk m c 3 t
abbrev candHBlk (c : Dev nD) (t : Fin cfg0.N) : S256x256.Idx → EReal := iblk m c 4 t

/-- Point `t`'s x block at (p, k) is x at batch row `2048·t + p`. -/
theorem xblk_apply (c : Dev nD) (t : Fin cfg0.N) (p : Fin 2048) (k : Fin 256) :
    xBlk m c t (ix2 p k) = xArr m c (ix2 (rowOf t p) k) := by
  obtain ⟨e0, e1, -⟩ := idx_facts t
  show xArr m c (((cfg0.win 0).blk t).view.emb (ix2 p k)) = _
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 256 + 1 * k.val = k.val; omega

/-- Point `t`'s h block at (p, k) is h at batch row `2048·t + p`. -/
theorem hblk_apply (c : Dev nD) (t : Fin cfg0.N) (p : Fin 2048) (k : Fin 256) :
    hBlk m c t (ix2 p k) = hArr m c (ix2 (rowOf t p) k) := by
  obtain ⟨-, -, e0, e1, -⟩ := idx_facts t
  show hArr m c (((cfg0.win 1).blk t).view.emb (ix2 p k)) = _
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 256 + 1 * k.val = k.val; omega

/-- Every point's stacked-weight block is the whole stacked array. -/
theorem stackblk_apply (c : Dev nD) (t : Fin cfg0.N) (a b : Fin 512) :
    stackBlk m c t (ix2 a b) = stackedArr m c (ix2 a b) := by
  obtain ⟨-, -, -, -, e0, e1, -⟩ := idx_facts t
  show stackedArr m c (((cfg0.win 2).blk t).view.emb (ix2 a b)) = _
  refine congrArg _ (funext fun d => Fin.ext ?_)
  match d with
  | ⟨0, _⟩ => show win0_2.index t (0 : Fin 2) * 512 + 1 * a.val = a.val; omega
  | ⟨1, _⟩ => show win0_2.index t (1 : Fin 2) * 512 + 1 * b.val = b.val; omega

/-- Every point's two candidate-weight blocks are the whole candidate arrays. -/
theorem candXblk_apply (c : Dev nD) (t : Fin cfg0.N) (a b : Fin 256) :
    candXBlk m c t (ix2 a b) = candXArr m c (ix2 a b) := by
  obtain ⟨-, -, -, -, -, -, e0, e1, -⟩ := idx_facts t
  show candXArr m c (((cfg0.win 3).blk t).view.emb (ix2 a b)) = _
  refine congrArg _ (funext fun d => Fin.ext ?_)
  match d with
  | ⟨0, _⟩ => show win0_3.index t (0 : Fin 2) * 256 + 1 * a.val = a.val; omega
  | ⟨1, _⟩ => show win0_3.index t (1 : Fin 2) * 256 + 1 * b.val = b.val; omega
theorem candHblk_apply (c : Dev nD) (t : Fin cfg0.N) (a b : Fin 256) :
    candHBlk m c t (ix2 a b) = candHArr m c (ix2 a b) := by
  obtain ⟨-, -, -, -, -, -, -, -, e0, e1, -⟩ := idx_facts t
  show candHArr m c (((cfg0.win 4).blk t).view.emb (ix2 a b)) = _
  refine congrArg _ (funext fun d => Fin.ext ?_)
  match d with
  | ⟨0, _⟩ => show win0_4.index t (0 : Fin 2) * 256 + 1 * a.val = a.val; omega
  | ⟨1, _⟩ => show win0_4.index t (1 : Fin 2) * 256 + 1 * b.val = b.val; omega

/-! ## What a point writes back -/

/-- The prepared arrays at an entry, in terms of the two weight matrices the region finds. -/
theorem stacked_lo_apply (c : Dev nD) (k : Fin 256) (d : Fin 512) :
    stackedArr m c (ix2 (lo k) d) = wihArr m c (ix2 (wide d) k) := by
  rw [stacked_eq]; exact stack_lo _ _ k d
theorem stacked_hi_apply (c : Dev nD) (k : Fin 256) (d : Fin 512) :
    stackedArr m c (ix2 (hi k) d) = whhArr m c (ix2 (wide d) k) := by
  rw [stacked_eq]; exact stack_hi _ _ k d
theorem candX_apply (c : Dev nD) (k q : Fin 256) : candXArr m c (ix2 k q) = wihArr m c (ix2 (rowN q) k) := by
  rw [candX_eq]; exact cand_apply _ k q
theorem candH_apply (c : Dev nD) (k q : Fin 256) : candHArr m c (ix2 k q) = whhArr m c (ix2 (rowN q) k) := by
  rw [candH_eq]; exact cand_apply _ k q

/-- Row `p` of point `t`'s x (h) block against a column of a weight block, as a row product of the whole arrays. -/
theorem xsum_stacked (c : Dev nD) (t : Fin cfg0.N) (p : Fin 2048) (d : Fin 512) :
    ∑ k : Fin 256, xBlk m c t (ix2 p k) * stackBlk m c t (ix2 (lo k) d) = dotRow (xArr m c) (wihArr m c) (rowOf t p) (wide d) :=
  Finset.sum_congr rfl fun k _ => by rw [xblk_apply, stackblk_apply, stacked_lo_apply]
theorem hsum_stacked (c : Dev nD) (t : Fin cfg0.N) (p : Fin 2048) (d : Fin 512) :
    ∑ k : Fin 256, hBlk m c t (ix2 p k) * stackBlk m c t (ix2 (hi k) d) = dotRow (hArr m c) (whhArr m c) (rowOf t p) (wide d) :=
  Finset.sum_congr rfl fun k _ => by rw [hblk_apply, stackblk_apply, stacked_hi_apply]
theorem xsum_cand (c : Dev nD) (t : Fin cfg0.N) (p : Fin 2048) (q : Fin 256) :
    ∑ k : Fin 256, xBlk m c t (ix2 p k) * candXBlk m c t (ix2 k q) = dotRow (xArr m c) (wihArr m c) (rowOf t p) (rowN q) :=
  Finset.sum_congr rfl fun k _ => by rw [xblk_apply, candXblk_apply, candX_apply]
theorem hsum_cand (c : Dev nD) (t : Fin cfg0.N) (p : Fin 2048) (q : Fin 256) :
    ∑ k : Fin 256, hBlk m c t (ix2 p k) * candHBlk m c t (ix2 k q) = dotRow (hArr m c) (whhArr m c) (rowOf t p) (rowN q) :=
  Finset.sum_congr rfl fun k _ => by rw [hblk_apply, candHblk_apply, candH_apply]

/-- Entry (p, q) of what point `t` stores is the cell of batch row `2048·t + p` and hidden unit `q`, read off the arrays
    the region finds: the stacked array's rows `k` and `256 + k` at columns `q`, `256 + q` are the reset and update rows
    of the two weight matrices, the candidate arrays their rows `512 + q`. -/
theorem stored_apply (c : Dev nD) (t : Fin cfg0.N) (p : Fin 2048) (q : Fin 256) :
    k0_pay1 (iblk m c 0 t) (iblk m c 1 t) (iblk m c 2 t) (iblk m c 3 t) (iblk m c 4 t) (ix2 p q)
      = gruAt sigTanh (xArr m c) (hArr m c) (wihArr m c) (whhArr m c) (rowOf t p) q := by
  refine (pay_apply (xBlk m c t) (hBlk m c t) (stackBlk m c t) (candXBlk m c t) (candHBlk m c t) p q).trans ?_
  rw [xsum_stacked, hsum_stacked, xsum_stacked, hsum_stacked, xsum_cand, hsum_cand, hblk_apply]
  rfl

theorem stored_at (c : Dev nD) (t : Fin cfg0.N) (y : S2048x256.Idx) :
    k0_pay1 (iblk m c 0 t) (iblk m c 1 t) (iblk m c 2 t) (iblk m c 3 t) (iblk m c 4 t) y
      = gruAt sigTanh (xArr m c) (hArr m c) (wihArr m c) (whhArr m c) (rowOf t ⟨(y 0).val, (y 0).isLt⟩) ⟨(y 1).val, (y 1).isLt⟩ := by
  obtain ⟨p, q, rfl⟩ : ∃ (p : Fin 2048) (q : Fin 256), y = ix2 p q := ⟨y 0, y 1, eq_ix2 y⟩
  exact stored_apply m c t p q

/-- WHAT POINT `t` WRITES BACK is block `t` of the GRU step (gates by the hyperbolic tangent) of the arrays the region finds. -/
theorem flushed_eq (c : Dev nD) (t : Fin cfg0.N) :
    (dats m 0 c).flushed 5 t
      = ((cfg0.win 5).blk t).view.read (Elt Ideal) (gru sigTanh (xArr m c) (hArr m c) (wihArr m c) (whhArr m c)) := by
  rw [Value.flushed5]
  unfold out0_5
  rw [View.canon_unit_zero hz]
  simp only [View.ld_unit_zero (S := S2048x256) hz, View.ld_unit_zero (S := S512x512) hz, View.ld_unit_zero (S := S256x256) hz]
  funext y
  obtain ⟨-, -, -, -, -, -, -, -, -, -, e0, e1⟩ := idx_facts t
  refine (stored_at m c t y).trans ?_
  show _ = gru sigTanh (xArr m c) (hArr m c) (wihArr m c) (whhArr m c) (((cfg0.win 5).blk t).view.emb y)
  unfold gru
  refine congrArg₂ (gruAt sigTanh (xArr m c) (hArr m c) (wihArr m c) (whhArr m c)) (Fin.ext ?_) (Fin.ext ?_)
  · show t.val * 2048 + (y 0).val = win0_5.index t (0 : Fin 2) * 2048 + 1 * (y 0).val; omega
  · show (y 1).val = win0_5.index t (1 : Fin 2) * 256 + 1 * (y 1).val; omega

/-! ## The blocks tile the output -/

theorem mem_blk (t : Fin cfg0.N) (i : S131072x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v10).slice (win0_5.rect t)).set ↔ _
  rw [View.set_slice_whole, Rect.mem_set_unit]
  exact Iff.rfl

/-- Batch row `r` lies in the block of point `r / 2048`. -/
theorem cover (i : S131072x256.Idx) : ∃ t : Fin cfg0.N, (cfg0.win 5).flush t = true ∧ i ∈ ((cfg0.win 5).blk t).view.set := by
  have hi0 : (i 0).val < 131072 := (i 0).isLt
  have hi1 : (i 1).val < 256 := (i 1).isLt
  have hN : (i 0).val / 2048 < cfg0.N := by rw [show cfg0.N = 64 from N_0]; omega
  refine ⟨⟨(i 0).val / 2048, hN⟩, flush0_5 _, ?_⟩
  obtain ⟨-, -, -, -, -, -, -, -, -, -, e0, e1⟩ := idx_facts ⟨(i 0).val / 2048, hN⟩
  have e0' : win0_5.index ⟨(i 0).val / 2048, hN⟩ (0 : Fin 2) = (i 0).val / 2048 := e0
  rw [mem_blk]
  intro a
  match a with
  | ⟨0, _⟩ =>
    show win0_5.index ⟨(i 0).val / 2048, hN⟩ (0 : Fin 2) * 2048 ≤ (i 0).val ∧ (i 0).val < win0_5.index ⟨(i 0).val / 2048, hN⟩ (0 : Fin 2) * 2048 + 2048
    omega
  | ⟨1, _⟩ =>
    show win0_5.index ⟨(i 0).val / 2048, hN⟩ (1 : Fin 2) * 256 ≤ (i 1).val ∧ (i 1).val < win0_5.index ⟨(i 0).val / 2048, hN⟩ (1 : Fin 2) * 256 + 256
    omega

/-! ## The output array after the run -/

/-- After the run the output array is the GRU step, gates by the hyperbolic tangent, of the four arguments as launched. -/
theorem final (c : Dev nD) :
    (dats m 0 c).arrAt 5 cfg0.N
      = gru sigTanh (m ((c : Thread nD τ).loc main_arg0)) (m ((c : Thread nD τ).loc main_arg1))
          (m ((c : Thread nD τ).loc main_arg2)) (m ((c : Thread nD τ).loc main_arg3)) := by
  rw [(dats m 0 c).arrAt_eq_of_cover 5 (gru sigTanh (xArr m c) (hArr m c) (wihArr m c) (whhArr m c))
    (fun t _ => flushed_eq m c t) cover]
  show gru sigTanh (V m c main_arg0) (V m c main_arg1) (V m c main_arg2) (V m c main_arg3) = _
  rw [V_main_arg0, V_main_arg1, V_main_arg2, V_main_arg3]

/-- The kernel's run with its result named. -/
theorem run : θ_run defs (onTc (τ := τ) (main (F := Ideal))) ⟨m, fun _ => 0, ρ⟩ fun r => ∀ c : Dev nD,
      r.2.mem ((c : Thread nD τ).loc main_v10)
        = gru sigTanh (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.GruBlocks
end
-- ==== Proof.GruRef.lean ====
import proofs.«427330_j36043365548431_3_alg».proof.Proof.Gen.ReferenceIdeal.Read
import proofs.«427330_j36043365548431_3_alg».proof.Proof.GruMath

/-!
The reference computes, entry by entry, one GRU cell with its gates spelled `1 / (1 + e^{-t})`: its two [131072, 768] products
hold, at column `c`, row `i` of x (of h) against row `c` of the input (hidden) weight matrix, and the three column slices at
offsets 0, 256 and 512 pick the reset, update and candidate rows of a hidden unit.
-/

noncomputable section

namespace Cert.ReferenceIdeal.GruRef

open Cert.ReferenceIdeal Cert.ReferenceIdeal.Gen Cert.ReferenceIdeal.Read Idealize.ShloMosaic Idealize.ShloMosaic.ValueIdx Cert.GruMath

/-- Entry (i, c) of x · Wihᵀ is row `i` of x against row `c` of Wih. -/
theorem prodX_apply (x0 : S131072x256.Idx → EReal) (x2 : S768x256.Idx → EReal) (i : Fin 131072) (c : Fin 768) :
    val_main_v1 (F := Ideal) x0 x2 (ix2 i c) = dotRow x0 x2 i c := by
  rw [val_main_v1_apply]
  unfold dotRow
  refine Finset.sum_congr rfl fun k _ => ?_
  rw [val_main_v0_apply]
  have e1 : lidx_main_v1 (ix2 i c) k = ix2 i k := funext fun a => by
    match a with
    | ⟨0, _⟩ => rfl
    | ⟨1, _⟩ => rfl
  have e2 : idx_main_v0 (ridx_main_v1 (ix2 i c) k) = ix2 c k := funext fun a => by
    match a with
    | ⟨0, _⟩ => rfl
    | ⟨1, _⟩ => rfl
  rw [e1, e2]

/-- Entry (i, c) of h · Whhᵀ is row `i` of h against row `c` of Whh. -/
theorem prodH_apply (x1 : S131072x256.Idx → EReal) (x3 : S768x256.Idx → EReal) (i : Fin 131072) (c : Fin 768) :
    val_main_v3 (F := Ideal) x1 x3 (ix2 i c) = dotRow x1 x3 i c := by
  rw [val_main_v3_apply]
  unfold dotRow
  refine Finset.sum_congr rfl fun k _ => ?_
  rw [val_main_v2_apply]
  have e1 : lidx_main_v3 (ix2 i c) k = ix2 i k := funext fun a => by
    match a with
    | ⟨0, _⟩ => rfl
    | ⟨1, _⟩ => rfl
  have e2 : idx_main_v2 (ridx_main_v3 (ix2 i c) k) = ix2 c k := funext fun a => by
    match a with
    | ⟨0, _⟩ => rfl
    | ⟨1, _⟩ => rfl
  rw [e1, e2]

/-- The three column slices of a [131072, 768] product at (i, j) read columns `j`, `256 + j`, `512 + j`. -/
theorem colR (i : Fin 131072) (j : Fin 256) : idx_main_v4 (ix2 i j) = ix2 i (rowR j) := funext fun a => by
  match a with
  | ⟨0, _⟩ => rfl
  | ⟨1, _⟩ => rfl
theorem colZ (i : Fin 131072) (j : Fin 256) : idx_main_v5 (ix2 i j) = ix2 i (rowZ j) := funext fun a => by
  match a with
  | ⟨0, _⟩ => rfl
  | ⟨1, _⟩ => rfl
theorem colN (i : Fin 131072) (j : Fin 256) : idx_main_v6 (ix2 i j) = ix2 i (rowN j) := funext fun a => by
  match a with
  | ⟨0, _⟩ => rfl
  | ⟨1, _⟩ => rfl

/-- The reference's result is the GRU step with its gates by the exponential. -/
theorem result_eq (x0 x1 : S131072x256.Idx → EReal) (x2 x3 : S768x256.Idx → EReal) :
    val_main_v29 (F := Ideal) x0 x1 x2 x3 = gru sigExp x0 x1 x2 x3 := by
  funext a
  obtain ⟨i, j, rfl⟩ : ∃ (i : Fin 131072) (j : Fin 256), a = ix2 i j := ⟨a 0, a 1, eq_ix2 a⟩
  rw [gru_ix2]
  have e4 : val_main_v4 (F := Ideal) x0 x2 (ix2 i j) = dotRow x0 x2 i (rowR j) := by
    rw [val_main_v4_apply, colR, prodX_apply]
  have e5 : val_main_v5 (F := Ideal) x0 x2 (ix2 i j) = dotRow x0 x2 i (rowZ j) := by
    rw [val_main_v5_apply, colZ, prodX_apply]
  have e6 : val_main_v6 (F := Ideal) x0 x2 (ix2 i j) = dotRow x0 x2 i (rowN j) := by
    rw [val_main_v6_apply, colN, prodX_apply]
  have e7 : val_main_v7 (F := Ideal) x1 x3 (ix2 i j) = dotRow x1 x3 i (rowR j) := by
    rw [val_main_v7_apply, show idx_main_v7 (ix2 i j) = ix2 i (rowR j) from colR i j, prodH_apply]
  have e8 : val_main_v8 (F := Ideal) x1 x3 (ix2 i j) = dotRow x1 x3 i (rowZ j) := by
    rw [val_main_v8_apply, show idx_main_v8 (ix2 i j) = ix2 i (rowZ j) from colZ i j, prodH_apply]
  have e9 : val_main_v9 (F := Ideal) x1 x3 (ix2 i j) = dotRow x1 x3 i (rowN j) := by
    rw [val_main_v9_apply, show idx_main_v9 (ix2 i j) = ix2 i (rowN j) from colN i j, prodH_apply]
  simp only [val_main_v29_apply, val_main_v28_apply, val_main_v27_apply, val_main_v26_apply, val_main_v25_apply,
    val_main_v24_apply, val_main_v23_apply, val_main_v22_apply, val_main_cst_2_apply, val_main_v21_apply,
    val_main_v20_apply, val_main_cst_1_apply, val_main_v19_apply, val_main_v18_apply, val_main_v17_apply,
    val_main_v16_apply, val_main_v15_apply, val_main_cst_0_apply, val_main_v14_apply, val_main_v13_apply,
    val_main_cst_apply, val_main_v12_apply, val_main_v11_apply, val_main_v10_apply, e4, e5, e6, e7, e8, e9]
  rfl

end Cert.ReferenceIdeal.GruRef
end
-- ==== Proof.GruFinite.lean ====
import proofs.«427330_j36043365548431_3_alg».proof.Pre_finite_inputs
import proofs.«427330_j36043365548431_3_alg».proof.Proof.Gen.Pre_finite_inputs
import proofs.«427330_j36043365548431_3_alg».proof.Proof.GruMath
import Idealize.ShloMosaic.Lib.ReduceAll
import Idealize.ShloMosaic.Lib.ValueIdx

/-!
The precondition, read back: it is the conjunction, over the four inputs, of "every entry's absolute value is below +∞",
each a reduction by `and` over all entries. An extended real whose absolute value is below +∞ is a real number.
-/

noncomputable section

namespace Cert.GruFinite

open Idealize.ShloMosaic Cert.GruMath Cert.Pre_finite_inputs

instance : Subsingleton S_.Idx := ⟨fun a b => funext fun d => d.elim0⟩

/-- `|x| < +∞` (the f32 pattern `0x7F800000`) makes `x` a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of the four inputs is a real number. -/
theorem real_of_pre (a0 a1 : FVec Ideal S131072x256 .f32) (a2 a3 : FVec Ideal S768x256 .f32)
    (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  refine ⟨fun i => ?_, fun i => ?_, fun i => ?_, fun i => ?_⟩
  · have e := Host.reduce_andi_all _ _ _ _ _ e0 i
    exact isReal_of_abs_lt (a0 i) e
  · have e := Host.reduce_andi_all _ _ _ _ _ e1 i
    exact isReal_of_abs_lt (a1 i) e
  · have e := Host.reduce_andi_all _ _ _ _ _ e2 i
    exact isReal_of_abs_lt (a2 i) e
  · have e := Host.reduce_andi_all _ _ _ _ _ e3 i
    exact isReal_of_abs_lt (a3 i) e

end Cert.GruFinite
end
-- ==== Proof.lean ====
/-
  One step of a GRU cell over a batch of 131072 rows with 256 hidden units, against its jnp reference, over the extended reals.

  With r, z the reset and update pre-activations (row i of x against rows j, 256 + j of the input weights plus row i of h
  against the same rows of the hidden weights), n and m the candidate's input and hidden parts (rows 512 + j),
      out[i, j] = c + σ(z)·(h[i, j] − c),     c = tanh(n + σ(r)·m).
  The reference forms the two [131072, 768] products and slices them, and spells σ(t) = 1 / (1 + e^{-t}). The kernel works on
  2048 batch rows per grid point: it multiplies the lane concatenation [x | h] by the host-stacked [Wih ; Whh] reset/update
  columns — one 512-term sum per entry, which splits into the reference's two 256-term sums with no more than commutativity
  and associativity of + —, forms n and m by two small products, and spells σ(t) = ½·(tanh(½·t) + 1). The two spellings of σ
  agree at every real number; r and z are real because every input entry is (the precondition), so this is the one place
  finiteness is used. Formats (the bf16 casts) are the identity on extended reals.

  Modules: GruMath (the two spellings, the cell, the split of a 512-term sum), GruPayload (the stored block at an entry),
  GruBlocks (the host-prepared weights, the blocks of a point, the blocks tile the output: the kernel's run with its result
  named), GruRef (the reference's last stage is the same cell), GruFinite (the precondition read back).
-/
import proofs.«427330_j36043365548431_3_alg».proof.Defs
import proofs.«427330_j36043365548431_3_alg».proof.Proof.Gen.Kernel
import proofs.«427330_j36043365548431_3_alg».proof.Proof.Gen.Kernel.Skeleton
import proofs.«427330_j36043365548431_3_alg».proof.Proof.Gen.Kernel.Launch
import proofs.«427330_j36043365548431_3_alg».proof.Proof.Gen.Kernel.Points
import proofs.«427330_j36043365548431_3_alg».proof.Proof.Gen.Kernel.Frame
import proofs.«427330_j36043365548431_3_alg».proof.Proof.Gen.KernelIdeal
import proofs.«427330_j36043365548431_3_alg».proof.Proof.Gen.KernelIdeal.Skeleton
import proofs.«427330_j36043365548431_3_alg».proof.Proof.Gen.KernelIdeal.Launch
import proofs.«427330_j36043365548431_3_alg».proof.Proof.Gen.KernelIdeal.Points
import proofs.«427330_j36043365548431_3_alg».proof.Proof.Gen.KernelIdeal.Frame
import proofs.«427330_j36043365548431_3_alg».proof.Proof.Gen.ReferenceIdeal
import proofs.«427330_j36043365548431_3_alg».proof.Proof.Gen.Pre_finite_inputs
import proofs.«427330_j36043365548431_3_alg».proof.Proof.Gen.KernelIdeal.Value
import proofs.«427330_j36043365548431_3_alg».proof.Proof.Gen.ReferenceIdeal.Run
import proofs.«427330_j36043365548431_3_alg».proof.Proof.Gen.ReferenceIdeal.Read
import proofs.«427330_j36043365548431_3_alg».proof.Proof.GruMath
import proofs.«427330_j36043365548431_3_alg».proof.Proof.GruPayload
import proofs.«427330_j36043365548431_3_alg».proof.Proof.GruBlocks
import proofs.«427330_j36043365548431_3_alg».proof.Proof.GruRef
import proofs.«427330_j36043365548431_3_alg».proof.Proof.GruFinite
import Idealize.ShloMosaic.Adequacy
import Idealize.ShloMosaic.Init

noncomputable section

namespace Cert.Proof

open Idealize.ShloMosaic Idealize.SL.Sem Cert.GruMath

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the GRU step of the four inputs, the gates by the exponential: the reference by its own text,
    the kernel because on real pre-activations `½·(tanh(½·t) + 1) = 1 / (1 + e^{-t})`. -/
theorem algebraic : Cert.algebraic_KernelIdeal_ReferenceIdeal := by
  intro m ρ m' ρ' hpre hagree
  refine ⟨fun c => gru sigExp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.GruBlocks.run m ρ)
    obtain ⟨r0, r1, r2, r3⟩ := Cert.GruFinite.real_of_pre _ _ _ _ (hpre c)
    exact gru_sig r0 r1 r2 r3
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, Cert.ReferenceIdeal.GruRef.result_eq, (hagree c).1, (hagree c).2.1,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
